-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x64 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x32 .f32) (main_arg1 : IVec S2x1600000 32) (main_arg2 : FVec F S1600000 .f32) (main_arg3 : FVec F S64x32 .f32) (main_arg4 : FVec F S64 .f32) (main_arg5 : FVec F S1x64 .f32) (main_arg6 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S1x64 : Shape := ⟨2, ![1, 64]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S32x64 : Shape := ⟨2, ![32, 64]⟩
abbrev S64x1 : Shape := ⟨2, ![64, 1]⟩
abbrev S100000x1 : Shape := ⟨2, ![100000, 1]⟩
abbrev S10000x32 : Shape := ⟨2, ![10000, 32]⟩
abbrev S10000x1 : Shape := ⟨2, ![10000, 1]⟩
abbrev S10000x64 : Shape := ⟨2, ![10000, 64]⟩
abbrev S1x1 : Shape := ⟨2, ![1, 1]⟩

abbrev nBuf : Space → Nat
  | .hbm => 63
  | .vmem => 8
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S64x32, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x32, .f32⟩
  | .hbm, ⟨54, _⟩ => ⟨S1700000x32, .f32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S32x64, .f32⟩
  | .hbm, ⟨61, _⟩ => ⟨S64x1, .f32⟩
  | .hbm, ⟨62, _⟩ => ⟨S100000x1, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S64, .f32⟩
  | .local _ .vmem, ⟨4, _⟩ => ⟨S64x1, .f32⟩
  | .local _ .vmem, ⟨5, _⟩ => ⟨S1, .f32⟩
  | .local _ .vmem, ⟨6, _⟩ => ⟨S10000x1, .f32⟩
  | .local _ .vmem, ⟨7, _⟩ => ⟨S10000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  transposes_S64x32_S32x64_1_0 : S64x32.Transposes [1, 0] S32x64
  transposes_S1x64_S64x1_1_0 : S1x64.Transposes [1, 0] S64x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x1.size a ≤ S100000x1.size a
  hwx0_5 : ∀ i : grid0.Coords, EltTy.bits .f32 = 32 ∨ (Rect.block (s := S100000x1) S10000x1.size (cc0_transform_5 i) (hinb0_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v42) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S10000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S1x64 : Shape := ⟨2, ![1, 64]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S32x64 : Shape := ⟨2, ![32, 64]⟩
abbrev S100000x64 : Shape := ⟨2, ![100000, 64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S64x32, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x32, .f32⟩
  | .hbm, ⟨54, _⟩ => ⟨S1700000x32, .f32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S32x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S64x1, .f32⟩
  | .hbm, ⟨67, _⟩ => ⟨S100000x1, .f32⟩
  | .hbm, ⟨68, _⟩ => ⟨S1x1, .f32⟩
  | .hbm, ⟨69, _⟩ => ⟨S100000x1, .f32⟩
  | .hbm, ⟨70, _⟩ => ⟨S100000x1, .f32⟩
  | .hbm, ⟨71, _⟩ => ⟨S100000x1, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Readout.lean ====
/-
  The dense readout of the graph convolution, as one function of its five operands, index by index, on the
  extended reals.

  For a node `r` with aggregated features `aggr[r, ·]` (32 of them), hidden unit `k` (of 64) is
      hidden r k = tanh (∑ j, aggr[r, j] · w1t[j, k] + b1[k]),
  and the node's score is
      score r = logistic (∑ k, hidden r k · w2t[k, 0] + b2[0]),      logistic z = 1 / (1 + e^(-z)).
  Both sums are finite sums over `Fin 32` and `Fin 64`; nothing here needs the operands to be finite: the
  two programs are compared as the SAME expression, never rearranged.
-/
import Idealize.ShloMosaic.PureOps.Ideal
import Idealize.ShloMosaic.Lib.ValueIdx

noncomputable section

namespace Cert.Readout

open Idealize.ShloMosaic Idealize.ShloMosaic.ValueIdx

/-- Aggregated node features: 100000 nodes × 32 features. -/
abbrev SAggr : Shape := ⟨2, ![100000, 32]⟩
/-- First layer's weights, already transposed: 32 features × 64 hidden units. -/
abbrev SW1t : Shape := ⟨2, ![32, 64]⟩
/-- First layer's bias, one per hidden unit. -/
abbrev SB1 : Shape := ⟨1, ![64]⟩
/-- Second layer's weights, already transposed: 64 hidden units × 1 output. -/
abbrev SW2t : Shape := ⟨2, ![64, 1]⟩
/-- Second layer's bias. -/
abbrev SB2 : Shape := ⟨1, ![1]⟩
/-- One score per node. -/
abbrev SScore : Shape := ⟨2, ![100000, 1]⟩

/-- Hidden unit `k` of node `r`: the hyperbolic tangent of the node's features against column `k` of the
    transposed weights, plus the unit's bias. -/
def hidden (aggr : SAggr.Idx → EReal) (w1t : SW1t.Idx → EReal) (b1 : SB1.Idx → EReal) (r : Fin 100000) (k : Fin 64) : EReal :=
  Ideal.tanh ((∑ j : Fin 32, aggr (ix2 r j) * w1t (ix2 j k)) + b1 (ix1 k))

/-- The score at index `(r, o)` (`o` ranges over the one output column): the logistic function of the hidden
    layer against column `o` of the second layer's transposed weights, plus its bias. -/
def score (aggr : SAggr.Idx → EReal) (w1t : SW1t.Idx → EReal) (b1 : SB1.Idx → EReal) (w2t : SW2t.Idx → EReal)
    (b2 : SB2.Idx → EReal) : SScore.Idx → EReal := fun i =>
  Ideal.logistic ((∑ k : Fin 64, hidden aggr w1t b1 (i 0) k * w2t (ix2 k (i 1))) + b2 (ix1 (0 : Fin 1)))

/-- The f32 word `0x3F800000` denotes the real number one. -/
theorem one_f32 : Ideal.ofBits .f32 0x3F800000#32 = 1 := by
  simp [Ideal.ofBits, Ideal.ieee, -EReal.coe_mul]; norm_num

/-- The quotient `1 / (1 + e^(-z))`, spelt with the word for one, is the logistic function at every extended
    real `z` (it is the logistic function's definition). -/
theorem logistic_spelt (z : EReal) :
    Ideal.div (Ideal.ofBits .f32 0x3F800000#32) (Ideal.ofBits .f32 0x3F800000#32 + Ideal.exp (-z)) = Ideal.logistic z := by
  rw [one_f32]; rfl

end Cert.Readout

end
-- ==== Proof.ReferenceReadout.lean ====
/-
  The reference program's last stage is the readout `Cert.Readout.score` of three of its own earlier stages —
  the aggregated features (the scatter-add of the messages), the transposed first-layer weights, the transposed
  second-layer weights — and of the two bias arguments.

  Read from the result backwards: the result is `1 / (1 + exp (-z))`, which is `logistic z`; `z` is a
  matrix product with the hidden layer plus the broadcast bias `b2`; the hidden layer is `tanh` of a matrix product
  with the aggregated features plus the broadcast bias `b1`. A matrix product on the host, read at an index on the
  extended reals, is the finite sum of products over the contracted axis, and a broadcast reads its operand at the
  kept coordinates. The aggregated features themselves are never opened: the kernel is handed the very same array.
-/
import proofs.«139966_j91250875171104_1_alg».proof.Proof.Gen.ReferenceIdeal.Read
import proofs.«139966_j91250875171104_1_alg».proof.Proof.Readout

noncomputable section

namespace Cert.ReferenceReadout

open Cert.ReferenceIdeal Cert.ReferenceIdeal.Read Idealize.ShloMosaic Idealize.ShloMosaic.ValueIdx

/-- Row `r`, feature `j` of the aggregated features is where the first product's left index lands. -/
theorem left1 (i : S100000x1.Idx) (k : Fin 64) (j : Fin 32) :
    lidx_main_v44 (lidx_main_v50 i k) j = ix2 (i 0) j :=
  funext fun a => Fin.ext (by match a with | ⟨0, _⟩ => rfl | ⟨1, _⟩ => rfl)

/-- Feature `j`, hidden unit `k` of the transposed weights is where the first product's right index lands. -/
theorem right1 (i : S100000x1.Idx) (k : Fin 64) (j : Fin 32) :
    ridx_main_v44 (lidx_main_v50 i k) j = ix2 j k :=
  funext fun a => Fin.ext (by match a with | ⟨0, _⟩ => rfl | ⟨1, _⟩ => rfl)

/-- The first bias, broadcast twice, is read at the hidden unit. -/
theorem bias1 (i : S100000x1.Idx) (k : Fin 64) :
    idx_main_v45 (idx_main_v46 (lidx_main_v50 i k)) = ix1 k :=
  funext fun a => Fin.ext (by match a with | ⟨0, _⟩ => rfl)

/-- Hidden unit `k`, output column `i 1` of the transposed second weights is where the second product's right
    index lands. -/
theorem right2 (i : S100000x1.Idx) (k : Fin 64) : ridx_main_v50 i k = ix2 k (i 1) :=
  funext fun a => Fin.ext (by match a with | ⟨0, _⟩ => rfl | ⟨1, _⟩ => rfl)

/-- The second bias, broadcast twice, is read at its one entry. -/
theorem bias2 (i : S100000x1.Idx) : idx_main_v51 (idx_main_v52 i) = ix1 (0 : Fin 1) :=
  funext fun a => Fin.ext (by match a with | ⟨0, _⟩ => rfl)

/-- The hidden layer's stage at row `i 0`, unit `k` is the readout's hidden unit. -/
theorem hidden_stage (x0 : (⟨S100000x32, .f32⟩ : BufTy).Contents (Elt Ideal)) (x1 : (⟨S2x1600000, .i32⟩ : BufTy).Contents (Elt Ideal))
    (x2 : (⟨S1600000, .f32⟩ : BufTy).Contents (Elt Ideal)) (x3 : (⟨S64x32, .f32⟩ : BufTy).Contents (Elt Ideal))
    (x4 : (⟨S64, .f32⟩ : BufTy).Contents (Elt Ideal)) (i : S100000x1.Idx) (k : Fin 64) :
    val_main_v48 (F := Ideal) x0 x1 x2 x3 x4 (lidx_main_v50 i k)
      = Cert.Readout.hidden (val_main_v42 (F := Ideal) x0 x1 x2) (val_main_v43 (F := Ideal) x3) x4 (i 0) k := by
  rw [val_main_v48_apply, val_main_v47_apply, val_main_v44_apply, val_main_v46_apply, val_main_v45_apply, bias1]
  simp only [left1, right1]
  simp only [Ideal.hostUnary_tanh_def, Ideal.addf_def, Cert.Readout.hidden]
  rfl

/-- THE REFERENCE'S RESULT STAGE is the readout of its aggregated-features stage, its two transposed-weights stages
    and the two bias arguments. -/
theorem result_stage (x0 : (⟨S100000x32, .f32⟩ : BufTy).Contents (Elt Ideal)) (x1 : (⟨S2x1600000, .i32⟩ : BufTy).Contents (Elt Ideal))
    (x2 : (⟨S1600000, .f32⟩ : BufTy).Contents (Elt Ideal)) (x3 : (⟨S64x32, .f32⟩ : BufTy).Contents (Elt Ideal))
    (x4 : (⟨S64, .f32⟩ : BufTy).Contents (Elt Ideal)) (x5 : (⟨S1x64, .f32⟩ : BufTy).Contents (Elt Ideal))
    (x6 : (⟨S1, .f32⟩ : BufTy).Contents (Elt Ideal)) :
    val_main_v59 (F := Ideal) x0 x1 x2 x3 x4 x5 x6
      = Cert.Readout.score (val_main_v42 (F := Ideal) x0 x1 x2) (val_main_v43 (F := Ideal) x3) x4 (val_main_v49 (F := Ideal) x5) x6 := by
  funext i
  rw [val_main_v59_apply, val_main_v58_apply, val_main_cst_9_apply, val_main_v57_apply, val_main_v56_apply, val_main_cst_8_apply,
    val_main_v55_apply, val_main_v54_apply, val_main_v53_apply, val_main_v50_apply, val_main_v52_apply, val_main_v51_apply, bias2]
  simp only [hidden_stage, right2]
  simp only [Ideal.hostDivf_def, Ideal.addf_def, Ideal.hostUnary_exp_def, Ideal.hostNegf_def, Ideal.negf_def, Ideal.ofBits_def,
    Cert.Readout.score]
  exact Cert.Readout.logistic_spelt _

end Cert.ReferenceReadout

end
-- ==== Proof.KernelPayload.lean ====
/-
  What the kernel body stores, read at one index of its 10000 × 1 block, on the extended reals.

  The body takes a block of 10000 rows of aggregated features and the four small operands whole, and stores
      logistic (tanh (rows · w1t + b1) · w2t + b2).
  The two narrowings to bf16 before each matrix product are the identity on extended reals, and a matrix product
  into a zero accumulator read at an index is the finite sum of products over the contracted axis. So row `p` of the
  stored block is the readout's score of row `p` of the loaded block, with the same two sums over `Fin 32` and
  `Fin 64` as the reference's, term for term.
-/
import proofs.«139966_j91250875171104_1_alg».proof.Proof.Gen.KernelIdeal.Skeleton
import proofs.«139966_j91250875171104_1_alg».proof.Proof.Readout
import Idealize.ShloMosaic.Lib.Pipeline.Value
import Idealize.ShloMosaic.Lib.ValueLayout
import Idealize.ShloMosaic.Lib.ValueIdx
import Idealize.ShloMosaic.PureOps.Ideal.Laws

noncomputable section

namespace Cert.KernelPayload

open Cert.KernelIdeal Cert.KernelIdeal.Gen Idealize.ShloMosaic Idealize.ShloMosaic.ValueIdx

/-! ## The first product: 10000 × 32 rows against the 32 × 64 transposed weights -/

theorem lhs1_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs1_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs1_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs1_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- Row `p`, column `k` of the first product into zero: the sum over the 32 features. -/
theorem product1 (a : FVec Ideal S10000x32 .bf16) (w : FVec Ideal S32x64 .bf16) (p : Fin 10000) (k : Fin 64) :
    matmul dot_S10000x32_S32x64_S10000x64_1_0_0_1_n_n none a w (constant S10000x64 .f32 0x00000000#32) (ix2 p k)
      = ∑ j : Fin 32, a (ix2 p j) * w (ix2 j k) := by
  simp only [matmul]
  rw [Ideal.matmul_constant_zero_apply, ← Equiv.sum_comp (ValueIdx.contrEquiv1 dot_S10000x32_S32x64_S10000x64_1_0_0_1_n_n 32 rfl rfl).symm]
  refine Finset.sum_congr rfl fun j _ => ?_
  have hj := ValueIdx.contrEquiv1_symm_val dot_S10000x32_S32x64_S10000x64_1_0_0_1_n_n 32 rfl rfl j
  have el : dot_S10000x32_S32x64_S10000x64_1_0_0_1_n_n.lhsIdx (ix2 p k) ((ValueIdx.contrEquiv1 dot_S10000x32_S32x64_S10000x64_1_0_0_1_n_n 32 rfl rfl).symm j) = ix2 p j := funext fun a => Fin.ext (by
    match a with
    | ⟨0, _⟩ => exact lhs1_0 _ _
    | ⟨1, _⟩ => exact (lhs1_1 _ _).trans hj)
  have er : dot_S10000x32_S32x64_S10000x64_1_0_0_1_n_n.rhsIdx (ix2 p k) ((ValueIdx.contrEquiv1 dot_S10000x32_S32x64_S10000x64_1_0_0_1_n_n 32 rfl rfl).symm j) = ix2 j k := funext fun a => Fin.ext (by
    match a with
    | ⟨0, _⟩ => exact (rhs1_0 _ _).trans hj
    | ⟨1, _⟩ => exact rhs1_1 _ _)
  rw [el, er]

/-! ## The second product: the 10000 × 64 hidden layer against the 64 × 1 transposed weights -/

theorem lhs2_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs2_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs2_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs2_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- Row `p`, column `q` of the second product into zero: the sum over the 64 hidden units. -/
theorem product2 (a : FVec Ideal S10000x64 .bf16) (w : FVec Ideal S64x1 .bf16) (p : Fin 10000) (q : Fin 1) :
    matmul dot_S10000x64_S64x1_S10000x1_1_0_0_1_n_n none a w (constant S10000x1 .f32 0x00000000#32) (ix2 p q)
      = ∑ k : Fin 64, a (ix2 p k) * w (ix2 k q) := by
  simp only [matmul]
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx (ix2 p q) ((ValueIdx.contrEquiv1 dot_S10000x64_S64x1_S10000x1_1_0_0_1_n_n 64 rfl rfl).symm k) = ix2 p k := funext fun a => Fin.ext (by
    match a with
    | ⟨0, _⟩ => exact lhs2_0 _ _
    | ⟨1, _⟩ => exact (lhs2_1 _ _).trans hk)
  have er : dot_S10000x64_S64x1_S10000x1_1_0_0_1_n_n.rhsIdx (ix2 p q) ((ValueIdx.contrEquiv1 dot_S10000x64_S64x1_S10000x1_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-! ## The two biases, each viewed as one row and repeated down the block -/

/-- The first bias at row `p`, hidden unit `k` is its entry `k`. -/
theorem bias1 (b : Vec Ideal S64 .f32) (p : Fin 10000) (k : Fin 64) :
    broadcastTo S10000x64 (shapeCast S1x64 b shapeCasts_S64_S1x64) broadcasts_S1x64_S10000x64 (ix2 p k) = b (ix1 k) := by
  rw [broadcastTo_apply _ broadcasts_S1x64_S10000x64 (ix2 p k) (ix2 (0 : Fin 1) k) (fun a => match a with
    | ⟨0, _⟩ => by show 0 = if (1 : Nat) = 1 then 0 else p.val; rw [if_pos rfl]
    | ⟨1, _⟩ => by show k.val = if (64 : Nat) = 1 then 0 else k.val; rw [if_neg (by decide)])]
  exact shapeCast_a_1a_apply b shapeCasts_S64_S1x64 0 k

/-- The second bias at row `p` is its one entry. -/
theorem bias2 (b : Vec Ideal S1 .f32) (p : Fin 10000) (q : Fin 1) :
    broadcastTo S10000x1 (shapeCast S1x1 b shapeCasts_S1_S1x1) broadcasts_S1x1_S10000x1 (ix2 p q) = b (ix1 (0 : Fin 1)) := by
  rw [broadcastTo_apply _ broadcasts_S1x1_S10000x1 (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])]
  exact shapeCast_a_1a_apply b shapeCasts_S1_S1x1 0 0

/-! ## The stored value at an index -/

/-- ROW `p` OF THE STORED BLOCK: the logistic function of the hidden layer of row `p` of the loaded rows against the
    second weights, plus the second bias; the hidden layer the hyperbolic tangent of the row against the first weights,
    plus the first bias. -/
theorem stored_apply (x0 : Vec Ideal S10000x32 .f32) (x1 : Vec Ideal S32x64 .f32) (x2 : Vec Ideal S64 .f32)
    (x3 : Vec Ideal S64x1 .f32) (x4 : Vec Ideal S1 .f32) (p : Fin 10000) (q : Fin 1) :
    k0_pay1 (F := Ideal) x0 x1 x2 x3 x4 (ix2 p q)
      = Ideal.logistic ((∑ k : Fin 64, Ideal.tanh ((∑ j : Fin 32, x0 (ix2 p j) * x1 (ix2 j k)) + x2 (ix1 k)) * x3 (ix2 k q))
          + x4 (ix1 (0 : Fin 1))) := by
  unfold k0_pay1
  simp only [shapeCast_self]
  simp only [logistic, addf, Ideal.logistic_def, Ideal.addf_def, product2]
  simp only [truncf, tanh, addf, Ideal.truncf_def, Ideal.tanh_def, Ideal.addf_def, product1]
  rw [bias2]
  refine congrArg Ideal.logistic (congrArg (· + x4 (ix1 (0 : Fin 1))) (Finset.sum_congr rfl fun k _ => ?_))
  rw [bias1]

end Cert.KernelPayload

end
-- ==== Proof.KernelBlocks.lean ====
/-
  From blocks to the array: the kernel's result array is the readout of the arrays the region is handed.

  The grid has ten points; point `t` is handed rows `10000 t … 10000 t + 9999` of the aggregated features, the four
  small operands whole, and writes back rows `10000 t … 10000 t + 9999` of the result. What it stores at row `p` of its
  block is the readout's score of row `p` of the loaded rows, so what it writes back is block `t` of the readout of the
  whole arrays. Row `r` of the result lies in the block of point `r / 10000`, so the ten blocks cover the array, and the
  array ends holding the readout.
-/
import proofs.«139966_j91250875171104_1_alg».proof.Proof.Gen.KernelIdeal.Value
import proofs.«139966_j91250875171104_1_alg».proof.Proof.KernelPayload
import proofs.«139966_j91250875171104_1_alg».proof.Proof.Readout
import Idealize.ShloMosaic.Lib.Pipeline.Value

noncomputable section

namespace Cert.KernelBlocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- ONE ROW OF ONE BLOCK: if row `p` of the loaded rows is row `r` of the aggregated features and the four small
    operands are loaded whole, the stored value at row `p` is the readout's score at row `r`. -/
theorem row_is_score (aggr : Vec Ideal S100000x32 .f32) (w1t : Vec Ideal S32x64 .f32) (b1 : Vec Ideal S64 .f32)
    (w2t : Vec Ideal S64x1 .f32) (b2 : Vec Ideal S1 .f32)
    (x0 : Vec Ideal S10000x32 .f32) (x1 : Vec Ideal S32x64 .f32) (x2 : Vec Ideal S64 .f32) (x3 : Vec Ideal S64x1 .f32)
    (x4 : Vec Ideal S1 .f32) (r : Fin 100000) (p : Fin 10000) (q : Fin 1)
    (h0 : ∀ j : Fin 32, x0 (ix2 p j) = aggr (ix2 r j)) (h1 : x1 = w1t) (h2 : x2 = b1) (h3 : x3 = w2t) (h4 : x4 = b2) :
    k0_pay1 (F := Ideal) x0 x1 x2 x3 x4 (ix2 p q) = Cert.Readout.score aggr w1t b1 w2t b2 (ix2 r q) := by
  subst h1 h2 h3 h4
  rw [Cert.KernelPayload.stored_apply]
  simp only [h0]
  rfl

/-- The printed index maps over the ten points: the features' and the result's blocks move with the point along the
    rows, every other coordinate of every block index is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The grid has ten points. -/
theorem point_lt (t : Fin cfg0.N) : t.val < 10 := Nat.lt_of_lt_of_eq t.isLt N_0

/-! ## Each window's block at a point, for ANY contents of its array

Stated over arbitrary arrays: which entries of an array a block holds depends on the index maps only. -/

/-- Row `p` of the rows point `t` is handed is row `10000 t + p` of the first window's array. -/
theorem rows_of (A : Vec Ideal S100000x32 .f32) (t : Fin cfg0.N) (p : Fin 10000) (r : Fin 100000)
    (hr : r.val = t.val * 10000 + p.val) (j : Fin 32) :
    (((cfg0.win 0).blk t).view.read (Elt Ideal) A : Vec Ideal S10000x32 .f32) (ix2 p j) = A (ix2 r j) := by
  obtain ⟨e00, e01, -⟩ := index_maps t
  show A (((cfg0.win 0).blk t).view.emb (ix2 p j)) = A (ix2 r j)
  refine congrArg A (funext fun a => Fin.ext ?_)
  match a with
  | ⟨0, _⟩ => show win0_0.index t (0 : Fin 2) * 10000 + 1 * p.val = r.val; omega
  | ⟨1, _⟩ => show win0_0.index t (1 : Fin 2) * 32 + 1 * j.val = j.val; omega

/-- Every point is handed the second window's array whole. -/
theorem whole_of1 (A : Vec Ideal S32x64 .f32) (t : Fin cfg0.N) :
    (((cfg0.win 1).blk t).view.read (Elt Ideal) A : Vec Ideal S32x64 .f32) = A := by
  obtain ⟨-, -, e10, e11, -⟩ := index_maps t
  funext y
  show A (((cfg0.win 1).blk t).view.emb y) = A y
  refine congrArg A (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- Every point is handed the third window's array whole. -/
theorem whole_of2 (A : Vec Ideal S64 .f32) (t : Fin cfg0.N) :
    (((cfg0.win 2).blk t).view.read (Elt Ideal) A : Vec Ideal S64 .f32) = A := by
  obtain ⟨-, -, -, -, e2, -⟩ := index_maps t
  funext y
  show A (((cfg0.win 2).blk t).view.emb y) = A y
  refine congrArg A (funext fun a => Fin.ext ?_)
  match a with
  | ⟨0, _⟩ => show win0_2.index t (0 : Fin 1) * 64 + 1 * (y 0).val = (y 0).val; omega

/-- Every point is handed the fourth window's array whole. -/
theorem whole_of3 (A : Vec Ideal S64x1 .f32) (t : Fin cfg0.N) :
    (((cfg0.win 3).blk t).view.read (Elt Ideal) A : Vec Ideal S64x1 .f32) = A := by
  obtain ⟨-, -, -, -, -, e30, e31, -⟩ := index_maps t
  funext y
  show A (((cfg0.win 3).blk t).view.emb y) = A y
  refine congrArg A (funext fun a => Fin.ext ?_)
  match a with
  | ⟨0, _⟩ => show win0_3.index t (0 : Fin 2) * 64 + 1 * (y 0).val = (y 0).val; omega
  | ⟨1, _⟩ => show win0_3.index t (1 : Fin 2) * 1 + 1 * (y 1).val = (y 1).val; omega

/-- Every point is handed the fifth window's array whole. -/
theorem whole_of4 (A : Vec Ideal S1 .f32) (t : Fin cfg0.N) :
    (((cfg0.win 4).blk t).view.read (Elt Ideal) A : Vec Ideal S1 .f32) = A := by
  obtain ⟨-, -, -, -, -, -, -, e4, -⟩ := index_maps t
  funext y
  show A (((cfg0.win 4).blk t).view.emb y) = A y
  refine congrArg A (funext fun a => Fin.ext ?_)
  match a with
  | ⟨0, _⟩ => show win0_4.index t (0 : Fin 1) * 1 + 1 * (y 0).val = (y 0).val; omega

/-- Row `p` of the block point `t` writes back is row `10000 t + p` of the result array. -/
theorem result_row (t : Fin cfg0.N) (p : Fin 10000) (q : Fin 1) (r : Fin 100000) (hr : r.val = t.val * 10000 + p.val) :
    (ix2 r q : S100000x1.Idx) = ((cfg0.win 5).blk t).view.emb (ix2 p q) := by
  obtain ⟨-, -, -, -, -, -, -, -, e50, e51⟩ := index_maps t
  refine funext fun a => Fin.ext ?_
  match a with
  | ⟨0, _⟩ => show r.val = win0_5.index t (0 : Fin 2) * 10000 + 1 * p.val; rw [hr, e50, Nat.one_mul]
  | ⟨1, _⟩ => show q.val = win0_5.index t (1 : Fin 2) * 1 + 1 * q.val; rw [e51, Nat.zero_mul, Nat.zero_add, Nat.one_mul]

/-- WHAT THE BODY STORES AT POINT `t`, FOR ANY FIVE ARRAYS: run on the five arrays' blocks at `t`, it stores block `t` of
    the readout of the five arrays. -/
theorem block_of_score (A : Vec Ideal S100000x32 .f32) (W1 : Vec Ideal S32x64 .f32) (B1 : Vec Ideal S64 .f32)
    (W2 : Vec Ideal S64x1 .f32) (B2 : Vec Ideal S1 .f32) (t : Fin cfg0.N) :
    (cfg0.win 5).cut (grid0.coords t) (k0_pay1 (F := Ideal)
        (((cfg0.win 0).blk t).view.read (Elt Ideal) A) (((cfg0.win 1).blk t).view.read (Elt Ideal) W1)
        (((cfg0.win 2).blk t).view.read (Elt Ideal) B1) (((cfg0.win 3).blk t).view.read (Elt Ideal) W2)
        (((cfg0.win 4).blk t).view.read (Elt Ideal) B2))
      = ((cfg0.win 5).blk t).view.read (Elt Ideal) (Cert.Readout.score A W1 B1 W2 B2) := by
  have ht := point_lt t
  funext j
  obtain ⟨p, q, rfl⟩ : ∃ (p : Fin 10000) (q : Fin 1), j = ix2 p q := ⟨j 0, j 1, eq_ix2 j⟩
  have hp : p.val < 10000 := p.isLt
  exact (row_is_score A W1 B1 W2 B2 _ _ _ _ _ ⟨t.val * 10000 + p.val, by omega⟩ p q
    (rows_of A t p _ rfl) (whole_of1 W1 t) (whole_of2 B1 t) (whole_of3 W2 t) (whole_of4 B2 t)).trans
    (congrArg (Cert.Readout.score A W1 B1 W2 B2) (result_row t p q _ rfl))

/-! ## At the arrays the region finds -/

/-- The result: the readout of the five arrays as the region finds them. -/
abbrev result (c : Dev nD) : Buf (Elt Ideal) ((c : Thread nD τ).loc main_v45) :=
  Cert.Readout.score (V m c main_v42) (V m c main_v43) (V m c main_arg4) (V m c main_v44) (V m c main_arg6)

/-- WHAT POINT `t` WRITES BACK is block `t` of the result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zeros2]
  simp only [View.ld_unit_zero (S := S10000x32) zeros2, View.ld_unit_zero (S := S32x64) zeros2, View.ld_unit_zero (S := S64) zeros1,
    View.ld_unit_zero (S := S64x1) zeros2, View.ld_unit_zero (S := S1) zeros1]
  unfold iblk
  exact block_of_score (V m c main_v42) (V m c main_v43) (V m c main_arg4) (V m c main_v44) (V m c main_arg6) t

/-- An index of the result array is in point `t`'s block iff each coordinate is in the block's range on its axis. -/
theorem mem_block (t : Fin cfg0.N) (i : S100000x1.Idx) :
    i ∈ ((cfg0.win 5).blk t).view.set ↔ ∀ a : Fin 2, win0_5.index t a * S10000x1.size a ≤ (i a).val ∧ (i a).val < win0_5.index t a * S10000x1.size a + S10000x1.size a := by
  show i ∈ ((View.whole main_v45).slice (win0_5.rect t)).set ↔ _
  rw [View.set_slice_whole, Rect.mem_set_unit]
  exact Iff.rfl

/-- THE COVER: row `r` is in the block of point `r / 10000`. -/
theorem covered (i : S100000x1.Idx) : ∃ t : Fin cfg0.N, (cfg0.win 5).flush t = true ∧ i ∈ ((cfg0.win 5).blk t).view.set := by
  have hi0 : (i 0).val < 100000 := (i 0).isLt
  have hi1 : (i 1).val < 1 := (i 1).isLt
  have hN : cfg0.N = 10 := N_0
  let t : Fin cfg0.N := ⟨(i 0).val / 10000, by rw [hN]; omega⟩
  obtain ⟨-, -, -, -, -, -, -, -, e50, e51⟩ := index_maps t
  have e50' : win0_5.index t (0 : Fin 2) = (i 0).val / 10000 := e50
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 1 ≤ (i 1).val ∧ (i 1).val < win0_5.index t (1 : Fin 2) * 1 + 1; omega

/-- THE ARRAY after the run is the result. -/
theorem final (c : Dev nD) : (dats m 0 c).arrAt 5 cfg0.N = result m c :=
  (dats m 0 c).arrAt_eq_of_cover 5 (result m c) (fun t _ => flushed_eq m c t) covered

/-- The kernel's run, read: the result array at the readout of the arrays the region finds, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelBlocks

end
-- ==== Proof.SharedPrefix.lean ====
/-
  The three arrays the host computes before the kernel's region — the aggregated features, the transposed first-layer
  weights, the transposed second-layer weights — are, as functions of the program's arguments, the very stages the
  reference computes: both programs run the same host operations on the same arguments up to that point (the degree
  count, its inverse square root gathered per edge, the messages, their scatter-add per target node; the two
  transposes). Nothing about those operations is used beyond their being the same on both sides, so the edge
  indices may be anything.
-/
import proofs.«139966_j91250875171104_1_alg».proof.Proof.Gen.KernelIdeal.Frame
import proofs.«139966_j91250875171104_1_alg».proof.Proof.Gen.ReferenceIdeal.Read
import Idealize.ShloMosaic.Lib.StableHlo.Run

noncomputable section

namespace Cert.SharedPrefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 28800000 in
/-- The aggregated features the region finds are the reference's scatter-add stage of the node features, the edge
    indices and the edge weights. -/
theorem aggr_is_stage (c : Dev nD) :
    (V m c main_v42 : S100000x32.Idx → EReal)
      = Cert.ReferenceIdeal.Read.val_main_v42 (F := Ideal) (m ((c : Thread nD τ).loc main_arg0))
          (m ((c : Thread nD τ).loc main_arg1)) (m ((c : Thread nD τ).loc main_arg2)) := by
  dsimp only [V, hostOps0]; after_results_simp <;> rfl

/-- The transposed first-layer weights the region finds are the reference's transpose stage of the weights. -/
theorem w1t_is_stage (c : Dev nD) :
    (V m c main_v43 : S32x64.Idx → EReal)
      = Cert.ReferenceIdeal.Read.val_main_v43 (F := Ideal) (m ((c : Thread nD τ).loc main_arg3)) := by
  dsimp only [V, hostOps0]; after_results; rfl

/-- The transposed second-layer weights the region finds are the reference's transpose stage of the weights. -/
theorem w2t_is_stage (c : Dev nD) :
    (V m c main_v44 : S64x1.Idx → EReal)
      = Cert.ReferenceIdeal.Read.val_main_v49 (F := Ideal) (m ((c : Thread nD τ).loc main_arg5)) := by
  dsimp only [V, hostOps0]; after_results; rfl

end Cert.SharedPrefix

end
-- ==== Proof.lean ====
/-
  A graph convolution followed by a two-layer readout, computed two ways.

  Both programs first aggregate node features over the edges on the host, by the same operations on the same
  arguments: each node's degree (self loops included), its inverse square root gathered at both ends of every edge,
  the edge weight times that normalisation times the source node's features, summed into the target node. Call the
  result `aggr`, 100000 nodes by 32 features. Then
      score r = logistic (∑ k : 64, tanh (∑ j : 32, aggr[r, j] · w1[k, j] + b1[k]) · w2[0, k] + b2[0]).
  The reference computes the score with two matrix products over all nodes at once and spells the logistic function
  `1 / (1 + exp (-z))`; the kernel computes it 10000 nodes at a time, ten grid points, narrowing the operands of each
  product to bf16 first and using the one logistic operation.

  On the extended reals a change of float format is the identity, a matrix product read at an index is the finite sum
  of products over the contracted axis whichever program performs it, and `1 / (1 + exp (-z))` is the logistic
  function by definition, at the infinities too. So the two results are the same expression of `aggr`, the transposed
  weights and the biases, term for term: no sum is reordered and no law of arithmetic is used, which is why the
  finiteness of the inputs is never needed and the edge indices may be anything.

  The steps: `Readout` states the score as one function of its five operands; `ReferenceReadout` shows the reference's
  last stage is that function of its own earlier stages; `KernelPayload` reads what the kernel body stores at one row;
  `KernelBlocks` shows point `t` writes back block `t` of that function of the arrays the region is handed, and that the
  ten blocks cover the result; `SharedPrefix` shows those arrays are the reference's stages of the same arguments.
  The kernel has nothing the idealisation rewrote, so `preserves` is trivial.
-/
import proofs.«139966_j91250875171104_1_alg».proof.Defs
import proofs.«139966_j91250875171104_1_alg».proof.Proof.Gen.Kernel
import proofs.«139966_j91250875171104_1_alg».proof.Proof.Gen.Kernel.Skeleton
import proofs.«139966_j91250875171104_1_alg».proof.Proof.Gen.Kernel.Launch
import proofs.«139966_j91250875171104_1_alg».proof.Proof.Gen.Kernel.Points
import proofs.«139966_j91250875171104_1_alg».proof.Proof.Gen.Kernel.Frame
import proofs.«139966_j91250875171104_1_alg».proof.Proof.Gen.KernelIdeal
import proofs.«139966_j91250875171104_1_alg».proof.Proof.Gen.KernelIdeal.Skeleton
import proofs.«139966_j91250875171104_1_alg».proof.Proof.Gen.KernelIdeal.Launch
import proofs.«139966_j91250875171104_1_alg».proof.Proof.Gen.KernelIdeal.Points
import proofs.«139966_j91250875171104_1_alg».proof.Proof.Gen.KernelIdeal.Frame
import proofs.«139966_j91250875171104_1_alg».proof.Proof.Gen.ReferenceIdeal
import proofs.«139966_j91250875171104_1_alg».proof.Proof.Gen.Pre_finite_inputs
import proofs.«139966_j91250875171104_1_alg».proof.Proof.Gen.KernelIdeal.Value
import proofs.«139966_j91250875171104_1_alg».proof.Proof.Gen.ReferenceIdeal.Run
import proofs.«139966_j91250875171104_1_alg».proof.Proof.Gen.ReferenceIdeal.Read
import proofs.«139966_j91250875171104_1_alg».proof.Proof.Readout
import proofs.«139966_j91250875171104_1_alg».proof.Proof.ReferenceReadout
import proofs.«139966_j91250875171104_1_alg».proof.Proof.KernelPayload
import proofs.«139966_j91250875171104_1_alg».proof.Proof.KernelBlocks
import proofs.«139966_j91250875171104_1_alg».proof.Proof.SharedPrefix
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the readout of the same aggregated features, transposed
    weights and biases. -/
theorem algebraic : Cert.algebraic_KernelIdeal_ReferenceIdeal := by
  intro m ρ m' ρ' _ hagree
  refine ⟨fun c => Cert.KernelBlocks.result m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v59_eq, Cert.ReferenceReadout.result_stage, h0, h1, h2, h3, h4, h5, h6]
  exact congr (congr (congr (congr (congrArg Cert.Readout.score (Cert.SharedPrefix.aggr_is_stage m c).symm)
    (Cert.SharedPrefix.w1t_is_stage m c).symm) (Cert.KernelIdeal.Gen.V_main_arg4 m c).symm)
    (Cert.SharedPrefix.w2t_is_stage m c).symm) (Cert.KernelIdeal.Gen.V_main_arg6 m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
